-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x256 : Shape := ⟨2, ![2, 256]⟩
abbrev S2 : Shape := ⟨1, ![2]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg4 : IVec S640000 32) (main_v13 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v13 main_v16
  let main_c_6 : IVec S_ 32 := constantI S_ 32 0#32
  let main_v18 : IVec S640000 32 := broadcastInDim S640000 ![] bcast_S_S640000 main_c_6
  let main_v19 : IVec S640000 1 := cmpi .sge main_arg4 main_v18
  let main_c_7 : IVec S_ 1 := constantI S_ 1 1#1
  let main_v20 : IVec S_ 1 := (fun x v => Host.reduce IntOp.andi x v reducesTo_S640000_S_d0 h_S_) main_v19 main_c_7
  let main_v21 : IVec S_ 1 := andi main_v17 main_v20
  main_v21

def fn {F : FTy → Type} [FloatOps F] (main_arg0 : FVec F S100000x128 .f32) (main_arg1 : FVec F S2x256 .f32) (main_arg2 : FVec F S2 .f32) (main_arg3 : IVec S640000 32) (main_arg4 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg3 main_v14
  let main_c_5 : IVec S_ 1 := constantI S_ 1 1#1
  fn_part1 (F := F) main_arg4 main_v13 main_v15 main_c_5
-- ==== Kernel.lean ====
abbrev S100000x128 : Shape := ⟨2, ![100000, 128]⟩
abbrev S2x256 : Shape := ⟨2, ![2, 256]⟩
abbrev S2 : Shape := ⟨1, ![2]⟩
abbrev S640000 : Shape := ⟨1, ![640000]⟩
abbrev S2x128 : Shape := ⟨2, ![2, 128]⟩
abbrev S4x128 : Shape := ⟨2, ![4, 128]⟩
abbrev S4x100000 : Shape := ⟨2, ![4, 100000]⟩
abbrev S12800x128 : Shape := ⟨2, ![12800, 128]⟩
abbrev S4x12800 : Shape := ⟨2, ![4, 12800]⟩
abbrev S100000x4 : Shape := ⟨2, ![100000, 4]⟩
abbrev S100000x2 : Shape := ⟨2, ![100000, 2]⟩
abbrev S_ : Shape := ⟨0, ![]⟩
abbrev S640000x1 : Shape := ⟨2, ![640000, 1]⟩
abbrev S640000x2 : Shape := ⟨2, ![640000, 2]⟩
abbrev S1x2 : Shape := ⟨2, ![1, 2]⟩

abbrev nBuf : Space → Nat
  | .hbm => 50
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x256, .f32⟩
  | .hbm, ⟨2, _⟩ => ⟨S2, .f32⟩
  | .hbm, ⟨3, _⟩ => ⟨S640000, .i32⟩
  | .hbm, ⟨4, _⟩ => ⟨S640000, .i32⟩
  | .hbm, ⟨5, _⟩ => ⟨S2x128, .f32⟩
  | .hbm, ⟨6, _⟩ => ⟨S2x128, .f32⟩
  | .hbm, ⟨7, _⟩ => ⟨S4x128, .f32⟩
  | .hbm, ⟨8, _⟩ => ⟨S4x100000, .f32⟩
  | .hbm, ⟨9, _⟩ => ⟨S100000x4, .f32⟩
  | .hbm, ⟨10, _⟩ => ⟨S100000x2, .f32⟩
  | .hbm, ⟨11, _⟩ => ⟨S100000x2, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x2, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x2, .f32⟩
  | .hbm, ⟨46, _⟩ => ⟨S640000x2, .f32⟩
  | .hbm, ⟨47, _⟩ => ⟨S1x2, .f32⟩
  | .hbm, ⟨48, _⟩ => ⟨S640000x2, .f32⟩
  | .hbm, ⟨49, _⟩ => ⟨S640000x2, .f32⟩
  | .local _ .vmem, ⟨0, _⟩ => ⟨S12800x128, .f32⟩
  | .local _ .vmem, ⟨1, _⟩ => ⟨S12800x128, .f32⟩
  | .local _ .vmem, ⟨2, _⟩ => ⟨S4x128, .f32⟩
  | .local _ .vmem, ⟨3, _⟩ => ⟨S4x12800, .f32⟩
  | .local _ .vmem, ⟨4, _⟩ => ⟨S4x12800, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v8 : Ref sig .tc := ⟨.hbm, 27, rfl⟩
abbrev main_c_3 : Ref sig .tc := ⟨.hbm, 28, rfl⟩
abbrev main_v9 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x256_S2x128_0_0 : S2x256.Slices ![0, 0] S2x128
  slices_S2x256_S2x128_0_128 : S2x256.Slices ![0, 128] S2x128
  concatenates_S2x128_S2x128_S4x128_d0 : Shape.Concatenates [S2x128, S2x128] S4x128 0
  inb_S12800x128_S12800x128_0_0 : ∀ a, (![0, 0] : Fin 2 → Nat) a + S12800x128.size a ≤ S12800x128.size a
  h_S12800x128 : 0 < S12800x128.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S4x12800_S4x12800_0_0 : ∀ a, (![0, 0] : Fin 2 → Nat) a + S4x12800.size a ≤ S4x12800.size a
  h_S4x12800 : 0 < S4x12800.numel
  transposes_S4x100000_S100000x4_1_0 : S4x100000.Transposes [1, 0] S100000x4
  slices_S100000x4_S100000x2_0_0 : S100000x4.Slices ![0, 0] S100000x2
  slices_S100000x4_S100000x2_0_2 : S100000x4.Slices ![0, 2] S100000x2
  bcast_S_S640000 : S_.BroadcastsInDim S640000 (![] : Fin 0 → Fin S640000.rank)
  bcast_S640000_S640000x1_0 : S640000.BroadcastsInDim S640000x1 (![0] : Fin 1 → Fin S640000x1.rank)
  shapeCasts_S2_S1x2 : S2.ShapeCasts S1x2
  bcast_S1x2_S640000x2_0_1 : S1x2.BroadcastsInDim S640000x2 (![0, 1] : Fin 2 → Fin S640000x2.rank)
  dot_S4x128_S12800x128_S4x12800_1_1_0_0_n_n_wf : DotDims.WF S4x128 S12800x128 S4x12800 [1] [1] [0] [0] [] []
  gather_S100000x2_S640000x1_S640000x2_1_0_n_n_0_1_12_wf : GatherDims.WF S100000x2 S640000x1 S640000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12800x128.size a < S100000x128.size a
  hwx0_0 : ∀ i : grid0.Coords, EltTy.bits .f32 = 32 ∨ (Rect.unit (s := S100000x128) (fun a => cc0_transform_0 i a * S12800x128.size a) (fun a => (Pipeline.Clip.of (cc0_transform_0 i a) (S12800x128.size a) (S100000x128.size a)).extent (S12800x128.size a)) fun a => Pipeline.Clip.inb (Pipeline.Clip.ok_of (hstart0_0 i a))).WholeWords (EltTy.packing .f32)
  hwxs0_0 : ∀ i : grid0.Coords, EltTy.bits .f32 = 32 ∨ (Rect.unit (s := S12800x128) (fun _ => 0) (fun a => (Pipeline.Clip.of (cc0_transform_0 i a) (S12800x128.size a) (S100000x128.size a)).extent (S12800x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4x12800.size a < S4x100000.size a
  hwx0_2 : ∀ i : grid0.Coords, EltTy.bits .f32 = 32 ∨ (Rect.unit (s := S4x100000) (fun a => cc0_transform_2 i a * S4x12800.size a) (fun a => (Pipeline.Clip.of (cc0_transform_2 i a) (S4x12800.size a) (S4x100000.size a)).extent (S4x12800.size a)) fun a => Pipeline.Clip.inb (Pipeline.Clip.ok_of (hstart0_2 i a))).WholeWords (EltTy.packing .f32)
  hwxs0_2 : ∀ i : grid0.Coords, EltTy.bits .f32 = 32 ∨ (Rect.unit (s := S4x12800) (fun _ => 0) (fun a => (Pipeline.Clip.of (cc0_transform_2 i a) (S4x12800.size a) (S4x100000.size a)).extent (S4x12800.size a)) fun a => (Nat.zero_add _).trans_le (Pipeline.Clip.extent_le (Pipeline.Clip.ok_of (hstart0_2 i a)))).WholeWords (EltTy.packing .f32)

variable [Facts₀]

def dot_S4x128_S12800x128_S4x12800_1_1_0_0_n_n : DotDims S4x128 S12800x128 S4x12800 where
  lhsContracting := [1]
  rhsContracting := [1]
  lhsNonContracting := [0]
  rhsNonContracting := [0]
  lhsBatch := []
  rhsBatch := []
  wf := dot_S4x128_S12800x128_S4x12800_1_1_0_0_n_n_wf
def gather_S100000x2_S640000x1_S640000x2_1_0_n_n_0_1_12 : GatherDims S100000x2 S640000x1 S640000x2 where
  offsetDims := [1]
  collapsedSliceDims := [0]
  operandBatchingDims := []
  startIndicesBatchingDims := []
  startIndexMap := [0]
  indexVectorDim := 1
  sliceSizes := ![1, 2]
  wf := gather_S100000x2_S640000x1_S640000x2_1_0_n_n_0_1_12_wf

abbrev win0_0 : Pipeline.Window sig grid0 :=
  Pipeline.Window.ofSpecClip (Memref.whole main_arg0) S12800x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v3) S4x12800.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x256 : Shape := ⟨2, ![2, 256]⟩
abbrev S2 : Shape := ⟨1, ![2]⟩
abbrev S640000 : Shape := ⟨1, ![640000]⟩
abbrev S2x128 : Shape := ⟨2, ![2, 128]⟩
abbrev S_ : Shape := ⟨0, ![]⟩
abbrev S640000x1 : Shape := ⟨2, ![640000, 1]⟩
abbrev S640000x128 : Shape := ⟨2, ![640000, 128]⟩
abbrev S640000x2 : Shape := ⟨2, ![640000, 2]⟩
abbrev S1x2 : Shape := ⟨2, ![1, 2]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x256, .f32⟩
  | .hbm, ⟨2, _⟩ => ⟨S2, .f32⟩
  | .hbm, ⟨3, _⟩ => ⟨S640000, .i32⟩
  | .hbm, ⟨4, _⟩ => ⟨S640000, .i32⟩
  | .hbm, ⟨5, _⟩ => ⟨S2x128, .f32⟩
  | .hbm, ⟨6, _⟩ => ⟨S2x128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S640000x2, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x2, .f32⟩
  | .hbm, ⟨27, _⟩ => ⟨S640000x2, .f32⟩
  | .hbm, ⟨28, _⟩ => ⟨S1x2, .f32⟩
  | .hbm, ⟨29, _⟩ => ⟨S640000x2, .f32⟩
  | .hbm, ⟨30, _⟩ => ⟨S640000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S2x256_S2x128_0_0 : S2x256.Slices ![0, 0] S2x128
  slices_S2x256_S2x128_0_128 : S2x256.Slices ![0, 128] S2x128
  bcast_S_S640000 : S_.BroadcastsInDim S640000 (![] : Fin 0 → Fin S640000.rank)
  bcast_S640000_S640000x1_0 : S640000.BroadcastsInDim S640000x1 (![0] : Fin 1 → Fin S640000x1.rank)
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  gather_S100000x128_S640000x1_S640000x128_1_0_n_n_0_1_1128_wf : GatherDims.WF S100000x128 S640000x1 S640000x128 [1] [0] [] [0] [] 1 ![1, 128]
  dot_S640000x128_S2x128_S640000x2_1_1_0_0_n_n_wf : DotDims.WF S640000x128 S2x128 S640000x2 [1] [1] [0] [0] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S2x128_S640000x2_1_1_0_0_n_n : DotDims S640000x128 S2x128 S640000x2 where
  lhsContracting := [1]
  rhsContracting := [1]
  lhsNonContracting := [0]
  rhsNonContracting := [0]
  lhsBatch := []
  rhsBatch := []
  wf := dot_S640000x128_S2x128_S640000x2_1_1_0_0_n_n_wf

class Facts : Prop extends Facts₀ where

variable [Facts]
-- ==== Proof.Spec.lean ====
/-
  The specification both programs are compared with, over literal shapes and with no program imported.

  A graph has 100000 nodes with 128 features each (`h`), and 640000 edges given by two index vectors. An edge's score for
  class `c` is the source node's features against the first 128 columns of row `c` of `W`, plus the destination node's
  against the last 128 columns, plus the bias: `score e c = Σ_k h[s_e, k]·W[c, k] + Σ_k h[d_e, k]·W[c, 128 + k] + b[c]`.
  A start index is read as a signed integer and clamped into the node range (`rowOf`), as the host gather does.

  The two programs reach the row differently. The reference first wraps a negative index by adding the node count
  (`wrapWord`); the kernel first clips the index into `[0, 99999]` (`clipWord`) and wraps afterwards. On a non-negative
  index both are the plain clamp (`rowOf_wrap_of_nonneg`, `rowOf_wrap_clip_of_nonneg`).

  The kernel projects every node once, `P[r, n] = Σ_k Wst[r, k]·h[n, k]` with `Wst` the two column halves of `W`
  stacked (`stackW`), and an edge then reads two entries of `P` (`kscore`). Because multiplication of extended reals
  commutes and row `2·half + c` of the stack is column half `half` of row `c`, reading `P` is the edge-wise sum
  (`kscore_proj_eq_score`); no distributivity and hence no finiteness is used.
-/
import Idealize.ShloMosaic.PureOps.Ideal
import Idealize.ShloMosaic.Lib.ValueIdx

noncomputable section

namespace Cert.Spec

open Idealize.ShloMosaic Idealize.ShloMosaic.ValueIdx
open scoped BigOperators

abbrev SH : Shape := ⟨2, ![100000, 128]⟩
abbrev SW : Shape := ⟨2, ![2, 256]⟩
abbrev SWst : Shape := ⟨2, ![4, 128]⟩
abbrev SB : Shape := ⟨1, ![2]⟩
abbrev SE : Shape := ⟨1, ![640000]⟩
abbrev SO : Shape := ⟨2, ![640000, 2]⟩
abbrev SP : Shape := ⟨2, ![4, 100000]⟩

/-! ## Index words -/

/-- A start index read signed and clamped into the node range `[0, 99999]`. -/
def rowOf (s : BitVec 32) : Fin 100000 := ⟨min s.toInt.toNat 99999, by omega⟩

/-- The wrap of a negative index by the node count, as both programs spell it: `select (s < 0) (s + 100000) s`. -/
def wrapWord (s : BitVec 32) : BitVec 32 := Scalar.select (IntOp.cmpi .slt s 0#32) (IntOp.addi s 100000#32) s

/-- The kernel's clip of an index into `[0, 99999]`: `min 99999 (max 0 s)`, signed. -/
def clipWord (s : BitVec 32) : BitVec 32 := IntOp.minsi 99999#32 (IntOp.maxsi 0#32 s)

/-- On a non-negative index the wrap does nothing. -/
theorem rowOf_wrap_of_nonneg (s : BitVec 32) (hs : 0 ≤ s.toInt) : rowOf (wrapWord s) = rowOf s := by
  -- a non-negative word is not below zero, so the compare bit is 0 and the select keeps `s`
  have hlt : s.slt 0#32 = false := by
    rw [Bool.eq_false_iff, Ne, BitVec.slt_iff_toInt_lt]
    have h0 : (0#32 : BitVec 32).toInt = 0 := by decide
    omega
  unfold wrapWord Scalar.select IntOp.cmpi
  simp [hlt]

/-- On a non-negative index, clipping and then wrapping is the clamp itself. -/
theorem rowOf_wrap_clip_of_nonneg (s : BitVec 32) (hs : 0 ≤ s.toInt) : rowOf (wrapWord (clipWord s)) = rowOf s := by
  have h0 : (0#32 : BitVec 32).toInt = 0 := by decide
  have h9 : (99999#32 : BitVec 32).toInt = 99999 := by decide
  -- the lower clip keeps a non-negative word
  have hmax : IntOp.maxsi 0#32 s = s := by
    unfold IntOp.maxsi
    have : s.slt 0#32 = false := by
      rw [Bool.eq_false_iff, Ne, BitVec.slt_iff_toInt_lt]; omega
    simp [this]
  unfold clipWord
  rw [hmax]
  unfold IntOp.minsi
  by_cases hc : (99999#32 : BitVec 32).slt s = true
  · -- above the range: the clip gives 99999, which the clamp of `s` also gives
    rw [if_pos hc, rowOf_wrap_of_nonneg _ (by omega)]
    rw [BitVec.slt_iff_toInt_lt] at hc
    unfold rowOf
    apply Fin.ext
    simp only [h9]
    omega
  · -- inside the range: the clip keeps `s`
    rw [if_neg hc, rowOf_wrap_of_nonneg _ hs]

/-! ## The edge-wise score -/

/-- Node `n` against column half `half` of row `c` of `W`. -/
def proj (h : SH.Idx → EReal) (W : SW.Idx → EReal) (n : Fin 100000) (c : Fin 2) (half : Fin 2) : EReal :=
  ∑ k : Fin 128, h (ix2 n k) * W (ix2 c (⟨128 * half.val + k.val, by omega⟩ : Fin 256))

/-- The score of edge `e` for class `c`, the endpoints' index words given. -/
def scoreAt (h : SH.Idx → EReal) (W : SW.Idx → EReal) (b : SB.Idx → EReal) (s d : SE.Idx → BitVec 32)
    (e : Fin 640000) (c : Fin 2) : EReal :=
  proj h W (rowOf (s (ix1 e))) c 0 + proj h W (rowOf (d (ix1 e))) c 1 + b (ix1 c)

/-- The whole result array. -/
def score (h : SH.Idx → EReal) (W : SW.Idx → EReal) (b : SB.Idx → EReal) (s d : SE.Idx → BitVec 32) : SO.Idx → EReal :=
  fun j => scoreAt h W b s d ⟨(j 0).val, idx2_lt0 j⟩ ⟨(j 1).val, idx2_lt1 j⟩

/-- The score depends on the index words only through the rows they name. -/
theorem score_congr (h : SH.Idx → EReal) (W : SW.Idx → EReal) (b : SB.Idx → EReal) (s d s' d' : SE.Idx → BitVec 32)
    (hs : ∀ i, rowOf (s i) = rowOf (s' i)) (hd : ∀ i, rowOf (d i) = rowOf (d' i)) : score h W b s d = score h W b s' d' := by
  funext j; unfold score scoreAt; rw [hs, hd]

/-! ## The kernel's arrangement: project every node once, then read -/

/-- The two column halves of `W` stacked: rows 0, 1 the first half, rows 2, 3 the second. -/
def stackW (W : SW.Idx → EReal) : SWst.Idx → EReal :=
  fun i => W (ix2 (⟨(i 0).val % 2, by omega⟩ : Fin 2) (⟨128 * ((i 0).val / 2) + (i 1).val, by
    have h0 := idx2_lt0 i; have h1 := idx2_lt1 i; omega⟩ : Fin 256))

/-- Every node projected on the four stacked rows, transposed: `P[r, n] = Σ_k Wst[r, k]·h[n, k]`. -/
def projAll (h : SH.Idx → EReal) (Wst : SWst.Idx → EReal) : SP.Idx → EReal :=
  fun i => ∑ k : Fin 128, Wst (ix2 (⟨(i 0).val, idx2_lt0 i⟩ : Fin 4) k) * h (ix2 (⟨(i 1).val, idx2_lt1 i⟩ : Fin 100000) k)

/-- An edge's score read off a projection table `P`: rows `c` and `2 + c` at the two endpoints, plus the bias. -/
def kscoreAt (P : SP.Idx → EReal) (b : SB.Idx → EReal) (s d : SE.Idx → BitVec 32) (e : Fin 640000) (c : Fin 2) : EReal :=
  P (ix2 (⟨c.val, by omega⟩ : Fin 4) (rowOf (s (ix1 e)))) + P (ix2 (⟨2 + c.val, by omega⟩ : Fin 4) (rowOf (d (ix1 e)))) + b (ix1 c)

def kscore (P : SP.Idx → EReal) (b : SB.Idx → EReal) (s d : SE.Idx → BitVec 32) : SO.Idx → EReal :=
  fun j => kscoreAt P b s d ⟨(j 0).val, idx2_lt0 j⟩ ⟨(j 1).val, idx2_lt1 j⟩

/-- Reading the projection of every node is the edge-wise sum: products commute, and row `2·half + c` of the stack is
    column half `half` of row `c`. -/
theorem kscore_proj_eq_score (h : SH.Idx → EReal) (W : SW.Idx → EReal) (b : SB.Idx → EReal) (s d : SE.Idx → BitVec 32) :
    kscore (projAll h (stackW W)) b s d = score h W b s d := by
  funext j
  unfold kscore kscoreAt score scoreAt projAll stackW proj
  have hc := idx2_lt1 j
  congr 1; congr 1
  · -- first endpoint: stacked row `c` is row `c` of `W` at columns `k`
    apply Finset.sum_congr rfl; intro k _
    rw [mul_comm]; congr 2
    funext a; match a with
    | ⟨0, _⟩ => apply Fin.ext; show (j 1).val % 2 = (j 1).val; omega
    | ⟨1, _⟩ => apply Fin.ext; show 128 * ((j 1).val / 2) + k.val = 128 * 0 + k.val; omega
  · -- second endpoint: stacked row `2 + c` is row `c` of `W` at columns `128 + k`
    apply Finset.sum_congr rfl; intro k _
    rw [mul_comm]; congr 2
    funext a; match a with
    | ⟨0, _⟩ => apply Fin.ext; show (2 + (j 1).val) % 2 = (j 1).val; omega
    | ⟨1, _⟩ => apply Fin.ext; show 128 * ((2 + (j 1).val) / 2) + k.val = 128 * 1 + k.val; omega

end Cert.Spec

end
-- ==== Proof.PreDecode.lean ====
/-
  The precondition, read back for the two index vectors.

  The predicate is a conjunction of five all-reductions: three say the float inputs are finite, the last two say that
  every entry of the two index vectors is non-negative as a signed 32-bit integer (a signed compare `≥` with the
  broadcast constant 0, all-reduced by `and` from the constant 1). From the predicate being 1 the last two conjuncts
  are 1, an all-reduction by `and` that is 1 met a 1 at every position, and the compare being 1 at a position is the
  inequality `0 ≤ toInt` there. The three float conjuncts stay closed.
-/
import proofs.«425764_j41918880809002_3_alg».proof.Pre_finite_inputs
import proofs.«425764_j41918880809002_3_alg».proof.Proof.Gen.Pre_finite_inputs
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx

/-- The scalar shape has one index. -/
instance : Subsingleton Cert.Pre_finite_inputs.S_.Idx := ⟨fun _ _ => funext fun d => d.elim0⟩

/-- Where the precondition holds, every entry of both index vectors is non-negative read signed. -/
theorem nonneg_of_pre {F : FTy → Type} [FloatOps F] (h : FVec F Cert.Pre_finite_inputs.S100000x128 .f32) (W : FVec F Cert.Pre_finite_inputs.S2x256 .f32) (b : FVec F Cert.Pre_finite_inputs.S2 .f32) (src dst : IVec Cert.Pre_finite_inputs.S640000 32)
    (hpre : Cert.Pre_finite_inputs.fn (F := F) h W b src dst = fun _ => 1#1) :
    (∀ i, 0 ≤ (src i).toInt) ∧ (∀ i, 0 ≤ (dst i).toInt) := by
  have h0 := congrFun hpre ValueIdx.ix0
  dsimp only [Cert.Pre_finite_inputs.fn, Cert.Pre_finite_inputs.fn_part1] at h0
  obtain ⟨h1, hdst⟩ := IntOp.andi_eq_one.1 h0
  obtain ⟨-, hsrc⟩ := IntOp.andi_eq_one.1 h1
  clear h0 h1
  have hz : (0#32 : BitVec 32).toInt = 0 := by decide
  refine ⟨fun i => ?_, fun i => ?_⟩
  · -- the all-reduction met a 1 at position `i`; the broadcast constant reads 0 there
    have hi : IntOp.cmpi .sge (src i) 0#32 = 1#1 := Host.reduce_andi_all _ _ _ _ _ hsrc i
    have hle := IntOp.cmpi_sge.1 hi
    rw [hz] at hle
    exact hle
  · have hi : IntOp.cmpi .sge (dst i) 0#32 = 1#1 := Host.reduce_andi_all _ _ _ _ _ hdst i
    have hle := IntOp.cmpi_sge.1 hi
    rw [hz] at hle
    exact hle

end Cert.PreDecode
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.RefValue.lean ====
/-
  The reference program's result is the edge-wise score of the specification.

  The reference wraps each index vector (`select (s < 0) (s + 100000) s`), gathers whole rows of the node table at the
  wrapped indices, contracts each gathered row against a column half of `W` (the factor order is node feature times
  weight, as in the specification's `proj`), adds the two contractions and the broadcast bias. A gathered row read at
  column `k` is the node table at the clamped start index and column `k`; the column halves are slices starting at
  columns 0 and 128. So element `(e, c)` is the specification's sum, term by term.
-/
import proofs.«425764_j41918880809002_3_alg».proof.Proof.Gen.ReferenceIdeal.Read
import proofs.«425764_j41918880809002_3_alg».proof.Proof.Spec
import proofs.«425764_j41918880809002_3_alg».proof.Proof.LibRowGather
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Cert.LibRowGather
open Idealize.ShloMosaic Idealize.ShloMosaic.ValueIdx Idealize.ShloMosaic.StableHlo
open scoped BigOperators

/-- The printed gather record is the row gather's dimension numbers at the program's shapes. -/
theorem gather_eq_rowDims :
    gather_S100000x128_S640000x1_S640000x128_1_0_n_n_0_1_1128
      = rowDims 100000 128 640000 gather_S100000x128_S640000x1_S640000x128_1_0_n_n_0_1_1128_wf := rfl

/-- The start-indices column read at `(e, 0)` is the flat index vector at `e`. -/
theorem idx7_ix2 (e : Fin 640000) : idx_main_v7 (ix2 e (0 : Fin 1)) = ix1 e := by
  funext d; match d with | ⟨0, _⟩ => rfl

theorem idx15_ix2 (e : Fin 640000) : idx_main_v15 (ix2 e (0 : Fin 1)) = ix1 e := by
  funext d; match d with | ⟨0, _⟩ => rfl

/-- The source start index at `(e, 0)` is the wrapped index word. -/
theorem word_v7 (x3 : (⟨S640000, .i32⟩ : BufTy).Contents (Elt Ideal)) (e : Fin 640000) :
    val_main_v7 (F := Ideal) x3 (ix2 e (0 : Fin 1)) = Cert.Spec.wrapWord (x3 (ix1 e)) := by
  rw [val_main_v7_apply, val_main_v6_apply, val_main_v3_apply, val_main_v5_apply, val_main_v2_apply, val_main_v4_apply,
    val_main_c_apply, val_main_c_0_apply, idx7_ix2]
  rfl

/-- The destination start index at `(e, 0)` is the wrapped index word. -/
theorem word_v15 (x4 : (⟨S640000, .i32⟩ : BufTy).Contents (Elt Ideal)) (e : Fin 640000) :
    val_main_v15 (F := Ideal) x4 (ix2 e (0 : Fin 1)) = Cert.Spec.wrapWord (x4 (ix1 e)) := by
  rw [val_main_v15_apply, val_main_v14_apply, val_main_v11_apply, val_main_v13_apply, val_main_v10_apply,
    val_main_v12_apply, val_main_c_1_apply, val_main_c_2_apply, idx15_ix2]
  rfl

/-- The gathered source rows at `(e, k)`: the node table at the clamped wrapped index and column `k`. -/
theorem gather_v8 (x0 : (⟨S100000x128, .f32⟩ : BufTy).Contents (Elt Ideal))
    (x3 : (⟨S640000, .i32⟩ : BufTy).Contents (Elt Ideal)) (y : S640000x128.Idx) :
    val_main_v8 (F := Ideal) x0 x3 y
      = x0 (ix2 (Cert.Spec.rowOf (Cert.Spec.wrapWord (x3 (ix1 (⟨(y 0).val, idx2_lt0 y⟩ : Fin 640000)))))
          (⟨(y 1).val, idx2_lt1 y⟩ : Fin 128)) := by
  unfold val_main_v8
  rw [gather_eq_rowDims, gather_rows_apply (by decide)]
  simp only [word_v7]
  rfl

/-- The gathered destination rows at `(e, k)`. -/
theorem gather_v16 (x0 : (⟨S100000x128, .f32⟩ : BufTy).Contents (Elt Ideal))
    (x4 : (⟨S640000, .i32⟩ : BufTy).Contents (Elt Ideal)) (y : S640000x128.Idx) :
    val_main_v16 (F := Ideal) x0 x4 y
      = x0 (ix2 (Cert.Spec.rowOf (Cert.Spec.wrapWord (x4 (ix1 (⟨(y 0).val, idx2_lt0 y⟩ : Fin 640000)))))
          (⟨(y 1).val, idx2_lt1 y⟩ : Fin 128)) := by
  unfold val_main_v16
  rw [gather_eq_rowDims, gather_rows_apply (by decide)]
  simp only [word_v15]
  rfl

/-- The first column half of `W` read at `(c, k)` is `W` at column `128·0 + k`. -/
theorem widx_v0 (j : S640000x2.Idx) (k : Fin 128) :
    idx_main_v0 (ridx_main_v9 j k)
      = ix2 (⟨(j 1).val, idx2_lt1 j⟩ : Fin 2)
          (⟨128 * (0 : Fin 2).val + k.val, by have := k.isLt; show 128 * 0 + k.val < 256; omega⟩ : Fin 256) := by
  funext a
  match a with
  | ⟨0, _⟩ => rfl
  | ⟨1, _⟩ => exact Fin.ext (by show k.val = 128 * 0 + k.val; omega)

/-- The second column half of `W` read at `(c, k)` is `W` at column `128·1 + k`. -/
theorem widx_v1 (j : S640000x2.Idx) (k : Fin 128) :
    idx_main_v1 (ridx_main_v17 j k)
      = ix2 (⟨(j 1).val, idx2_lt1 j⟩ : Fin 2)
          (⟨128 * (1 : Fin 2).val + k.val, by have := k.isLt; show 128 * 1 + k.val < 256; omega⟩ : Fin 256) := by
  funext a
  match a with
  | ⟨0, _⟩ => rfl
  | ⟨1, _⟩ => exact Fin.ext (by show 128 + k.val = 128 * 1 + k.val; omega)

/-- The source contraction at `(e, c)` is the source node against the first column half of row `c`. -/
theorem v9_eq (x0 : (⟨S100000x128, .f32⟩ : BufTy).Contents (Elt Ideal)) (x1 : (⟨S2x256, .f32⟩ : BufTy).Contents (Elt Ideal))
    (x3 : (⟨S640000, .i32⟩ : BufTy).Contents (Elt Ideal)) (j : S640000x2.Idx) :
    val_main_v9 (F := Ideal) x0 x1 x3 j
      = Cert.Spec.proj x0 x1 (Cert.Spec.rowOf (Cert.Spec.wrapWord (x3 (ix1 (⟨(j 0).val, idx2_lt0 j⟩ : Fin 640000)))))
          (⟨(j 1).val, idx2_lt1 j⟩ : Fin 2) 0 := by
  rw [val_main_v9_apply]
  unfold Cert.Spec.proj
  refine Finset.sum_congr rfl fun k _ => ?_
  rw [gather_v8, val_main_v0_apply, widx_v0]

/-- The destination contraction at `(e, c)` is the destination node against the second column half of row `c`. -/
theorem v17_eq (x0 : (⟨S100000x128, .f32⟩ : BufTy).Contents (Elt Ideal)) (x1 : (⟨S2x256, .f32⟩ : BufTy).Contents (Elt Ideal))
    (x4 : (⟨S640000, .i32⟩ : BufTy).Contents (Elt Ideal)) (j : S640000x2.Idx) :
    val_main_v17 (F := Ideal) x0 x1 x4 j
      = Cert.Spec.proj x0 x1 (Cert.Spec.rowOf (Cert.Spec.wrapWord (x4 (ix1 (⟨(j 0).val, idx2_lt0 j⟩ : Fin 640000)))))
          (⟨(j 1).val, idx2_lt1 j⟩ : Fin 2) 1 := by
  rw [val_main_v17_apply]
  unfold Cert.Spec.proj
  refine Finset.sum_congr rfl fun k _ => ?_
  rw [gather_v16, val_main_v1_apply, widx_v1]

/-- The broadcast bias at `(e, c)` is the bias at `c`. -/
theorem bidx (j : S640000x2.Idx) : idx_main_v19 (idx_main_v20 j) = ix1 (⟨(j 1).val, idx2_lt1 j⟩ : Fin 2) := by
  funext d; match d with | ⟨0, _⟩ => rfl

/-- THE REFERENCE'S VALUE: the edge-wise score at the wrapped index words. -/
theorem ref_value (x0 : (⟨S100000x128, .f32⟩ : BufTy).Contents (Elt Ideal)) (x1 : (⟨S2x256, .f32⟩ : BufTy).Contents (Elt Ideal))
    (x2 : (⟨S2, .f32⟩ : BufTy).Contents (Elt Ideal)) (x3 x4 : (⟨S640000, .i32⟩ : BufTy).Contents (Elt Ideal)) :
    Cert.ReferenceIdeal.Read.val_main_v21 (F := Ideal) x0 x1 x2 x3 x4
      = Cert.Spec.score x0 x1 x2 (fun i => Cert.Spec.wrapWord (x3 i)) (fun i => Cert.Spec.wrapWord (x4 i)) := by
  funext j
  rw [val_main_v21_apply, val_main_v18_apply, v9_eq, v17_eq, val_main_v20_apply, val_main_v19_apply, bidx]
  rfl

end Cert.ReferenceIdeal.RefValue

end
-- ==== Proof.BitsBody.lean ====
/-
  The kernel body's triple and the pipeline's proof data for `Kernel`, at any float instance.

  The pallas_call projects a block of 12800 nodes on the four stacked rows of `W`: the body loads the node block
  `x : [12800, 128]` and the weights `w : [4, 128]`, and stores their product `w·xᵀ : [4, 12800]` over the whole output
  buffer (`Gen.k0_pay1 x w`). The grid has 8 points and 8·12800 = 102400 > 100000, so the last node block and the last
  output block overhang their arrays: the fetch fills only the first 10400 rows of the node buffer and the rest holds
  words nothing names; the write-back stores only the first 10400 columns.

  The proof data say what each staging buffer holds after the body at point `t`: the node block, filled out with a
  zero word past the array's end (`xfill`); the weights; and the product of those two (`oblk`).
-/
import proofs.«425764_j41918880809002_3_alg».proof.Proof.Gen.Kernel.Frame
import proofs.«425764_j41918880809002_3_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and what it leaves in the output buffer -/

abbrev rX : Rect S12800x128 := Rect.unit (s := S12800x128) ![0, 0] S12800x128.size inb_S12800x128_S12800x128_0_0
abbrev rW : Rect S4x128 := Rect.unit (s := S4x128) ![0, 0] S4x128.size inb_S4x128_S4x128_0_0
abbrev rO : Rect S4x12800 := Rect.unit (s := S4x12800) ![0, 0] S4x12800.size inb_S4x12800_S4x12800_0_0

/-- The output buffer after the body, from the two input buffers: its one store, over the whole buffer. -/
def out2 (x0 : Vec F S12800x128 .f32) (x1 : Vec F S4x128 .f32) : Vec F S4x12800 .f32 :=
  View.canon [⟨rO, k0_pay1 (View.ld x0 rX) (View.ld x1 rW)⟩]

/-- The one store covers the buffer. -/
theorem cover2 (p0 : Vec F S4x12800 .f32) (y : S4x12800.Idx) :
    ∃ pc ∈ ([⟨rO, p0⟩] : List (View.Piece (Elt F) S4x12800 .f32)), y ∈ pc.1.set :=
  View.cover_of_tiled [⟨rO, p0⟩] S4x12800.size (by rfl) y

/-- Every access is at offset zero over the whole buffer, so what the body leaves is the payload itself. -/
theorem out2_eq (x0 : Vec F S12800x128 .f32) (x1 : Vec F S4x128 .f32) : out2 x0 x1 = k0_pay1 x0 x1 := by
  have hz : (![0, 0] : Fin 2 → Nat) = fun _ => 0 := funext fun a => by fin_cases a <;> rfl
  unfold out2
  rw [View.canon_unit_zero hz]
  simp only [View.ld_unit_zero (S := S12800x128) hz, View.ld_unit_zero (S := S4x128) hz]

/-! ## The body's triple -/

/-- The kernel body on whole staging memrefs, the inputs' at contents `x0`, `x1` and the output's at anything, runs to
    the continuation holding the inputs' as they were and the output's at `out2 x0 x1`. -/
theorem sound_kernel (c : Dev nD) (E : Set ℕ) (i : grid0.Coords) (arg1 : Memref sig .tc .vmem S12800x128 .f32) (harg1 : arg1.IsWhole)
    (arg2 : Memref sig .tc .vmem S4x128 .f32) (harg2 : arg2.IsWhole) (arg3 : Memref sig .tc .vmem S4x12800 .f32) (harg3 : arg3.IsWhole)
    (x0 : Vec F S12800x128 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The node block at point `t`, filled out past the array's end with the zero word. -/
def xfill (c : Dev nD) (t : Fin cfg0.N) : S12800x128.Idx → Elt F .f32 :=
  win0_0.fill (grid0.coords t) (fun _ => Scalar.ofBits .f32 0#32) (iblk m c 0 t)

/-- The output buffer after the body at point `t`. -/
def oblk (c : Dev nD) (t : Fin cfg0.N) : S4x12800.Idx → Elt F .f32 :=
  k0_pay1 (xfill m c t) (iblk m c 1 t)

/-- The proof data of the one pipeline on core `c`: the arrays as the region finds them; after the body at point `t`
    the node buffer at its filled block, the weights' at their block, the output's at their product; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = oblk m c t := by dsimp only [dats]

/-- The node buffer is fetched at every point: it holds the block on the rows inside the array and `d` past them. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The weights' buffer holds their block at every point, fetched there or not. -/
theorem before0_1 (c : Dev nD) (t : Fin cfg0.N) (d) : (dats m 0 c).before 1 t d = iblk m c 1 t :=
  before0_1_of m (dats m 0 c) (A_eq m c 1) (after0_1 m c) t d

/-- The output's buffer is written back at every point, so the body finds it at contents nothing names. -/
theorem before0_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

end Cert.Kernel.Body

end
-- ==== Proof.BitsFrame.lean ====
/-
  The frame of the kernel at bit patterns: it runs to the end, faults nowhere and leaves its five arguments unchanged.

  At bit patterns the matrix unit's product is a function of the WHOLE node block, so what the output buffer holds at
  the last grid point depends on the words past the array's end that nothing names. A frame says nothing of the
  output, so the output window's contents are not named at all (`forgets0`): the body obligation hands the output
  buffer back at some contents, and the launch theorem for relational proof data concludes that the staged input
  array ends at its entry contents and every buffer the host operations after the region do not write (`T` is the
  set they may write) ends as the region found it. The five arguments are the staged node array and four buffers
  outside `T`.
-/
import proofs.«425764_j41918880809002_3_alg».proof.Proof.BitsBody
import Idealize.ShloMosaic.Lib.Pipeline.FrameSuffix
import Idealize.ShloMosaic.Lib.ValueIdx

set_option maxRecDepth 16384

noncomputable section

namespace Cert.Kernel.BitsFrame

open Cert.Kernel Cert.Kernel.Gen Cert.Kernel.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open scoped BigOperators

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents are not named: the output. -/
def forgets0 : Fin 3 → Bool := fun w => w.val == 2

/-! ## The body obligation, the output forgotten -/

/-- What the body is called with at point `t`: the node buffer at its block filled out with some `d`, the weights'
    buffer at what it holds, the output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the node buffer stated on the rows inside the array, the weights' as it was, the output's at
    anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before0_0 m c t d0, before0_1 m c t d1]
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) ((dats m 0 c).after 0 t) = iblk m c 0 t := by
    rw [after0_0]; exact win0_0.cut_fill _ _ _
  isplitl [H0]
  · iexists d0; rw [hx]; iexact H0
  isplitl [H1]
  · rw [after0_1]; iexact H1
  · iexists _; iexact H2

/-- The library's body obligation, at every point. -/
theorem body_obligation (c : Dev nD) :
    BodyObligationLoose (dats (F := F) m 0 c) (defs₀ (F := F)) Variants.none () Set.univ forgets0 := fun t => by
  rw [bigSep_W0, bigSep_W0]
  exact sound_body m c t

/-! ## The buffers the host operations after the region may write -/

/-- Every TensorCore buffer but the five arguments. -/
def T : Finset (Ref sig .tc) :=
  Finset.univ.filter fun b => b ≠ main_arg0 ∧ b ≠ main_arg1 ∧ b ≠ main_arg2 ∧ b ≠ main_arg3 ∧ b ≠ main_arg4

theorem mem_T_of (b : Ref sig .tc) (h : b ≠ main_arg0 ∧ b ≠ main_arg1 ∧ b ≠ main_arg2 ∧ b ≠ main_arg3 ∧ b ≠ main_arg4) : b ∈ T :=
  Finset.mem_filter.mpr ⟨Finset.mem_univ _, h⟩

set_option maxHeartbeats 1000000 in
/-- The host operations after the region write only buffers of `T`: each writes its own result buffer, which is none
    of the five arguments. -/
theorem sfx_T : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T_of _ (by decide)
  · simp only [hostOps1_1, List.mem_cons, List.mem_nil_iff, or_false] at hop
    rcases hop with rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T_of _ (by decide)
  · simp only [hostOps1_2, List.mem_cons, List.mem_nil_iff, or_false] at hop
    rcases hop with rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T_of _ (by decide)
  · simp only [hostOps1_3, List.mem_cons, List.mem_nil_iff, or_false] at hop
    rcases hop with rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T_of _ (by decide)
  · simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T_of _ (by decide)

theorem not_mem_T_arg1 : main_arg1 ∉ T := fun h => (Finset.mem_filter.mp h).2.2.1 rfl
theorem not_mem_T_arg2 : main_arg2 ∉ T := fun h => (Finset.mem_filter.mp h).2.2.2.1 rfl
theorem not_mem_T_arg3 : main_arg3 ∉ T := fun h => (Finset.mem_filter.mp h).2.2.2.2.1 rfl
theorem not_mem_T_arg4 : main_arg4 ∉ T := fun h => (Finset.mem_filter.mp h).2.2.2.2.2 rfl

/-! ## The run and the frame -/

set_option backward.isDefEq.respectTransparency.types false in
/-- Every weakly fair execution of @main terminates; the staged node array ends at some contents it may hold after
    every write-back (for an input: its entry contents), and every unscoped buffer outside `T` that no window stages
    ends as the region found it. -/
theorem run_main : θ_run defs (onTc (τ := τ) (main (F := F))) (s₀ m ρ)
    (Pipeline.RDat.FramePostR (cfgs 0) (fun c => (dats m 0 c).toRForget forgets0) T (fun c b => V0 m c (Proc.devRef .tc b))) :=
  Pipeline.RDat.θ_run_frame_around_T cfgs (0 : Fin 1) launch0 defs₀ Variants.none (fun c => (dats m 0 c).toRForget forgets0) T m ρ main
    (hbody := fun c => (body_obligation m c).toRForget)
    (hshare := fun c => ((dats m 0 c).toRForget forgets0).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps) (hT := sfx_T)
    (hmain := hmain m Variants.none) (hA := A_eq m) (hΦ := fun _ _ => rfl)

/-- The frame: the node array is a staged input, so it ends at its entry contents, which are its launch contents; the
    other four arguments are unscoped buffers no window stages and no host operation writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      (Pipeline.RDat.FramePostR.arr_in h c 0 rfl).trans ((A_eq m c 0).trans (V_main_arg0 m c)),
      ((h c).2 main_arg1 (Finset.mem_sdiff.mpr ⟨Pipeline.mem_restRefs_of main_arg1 (by decide) (by decide), not_mem_T_arg1⟩)).trans (V_main_arg1 m c),
      ((h c).2 main_arg2 (Finset.mem_sdiff.mpr ⟨Pipeline.mem_restRefs_of main_arg2 (by decide) (by decide), not_mem_T_arg2⟩)).trans (V_main_arg2 m c),
      ((h c).2 main_arg3 (Finset.mem_sdiff.mpr ⟨Pipeline.mem_restRefs_of main_arg3 (by decide) (by decide), not_mem_T_arg3⟩)).trans (V_main_arg3 m c),
      ((h c).2 main_arg4 (Finset.mem_sdiff.mpr ⟨Pipeline.mem_restRefs_of main_arg4 (by decide) (by decide), not_mem_T_arg4⟩)).trans (V_main_arg4 m c)⟩)
    (run_main m ρ)

end Cert.Kernel.BitsFrame

end
-- ==== Proof.IdealBody.lean ====
/-
  The kernel body's triple and the pipeline's proof data for `KernelIdeal`, at any float instance.

  The pallas_call projects a block of 12800 nodes on the four stacked rows of `W`: the body loads the node block
  `x : [12800, 128]` and the weights `w : [4, 128]`, and stores their product `w·xᵀ : [4, 12800]` over the whole output
  buffer (`Gen.k0_pay1 x w`). The grid has 8 points and 8·12800 = 102400 > 100000, so the last node block and the last
  output block overhang their arrays: the fetch fills only the first 10400 rows of the node buffer and the rest holds
  words nothing names; the write-back stores only the first 10400 columns.

  The proof data say what each staging buffer holds after the body at point `t`: the node block, filled out with a
  zero word past the array's end (`xfill`); the weights; and the product of those two (`oblk`).
-/
import proofs.«425764_j41918880809002_3_alg».proof.Proof.Gen.KernelIdeal.Frame
import proofs.«425764_j41918880809002_3_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and what it leaves in the output buffer -/

abbrev rX : Rect S12800x128 := Rect.unit (s := S12800x128) ![0, 0] S12800x128.size inb_S12800x128_S12800x128_0_0
abbrev rW : Rect S4x128 := Rect.unit (s := S4x128) ![0, 0] S4x128.size inb_S4x128_S4x128_0_0
abbrev rO : Rect S4x12800 := Rect.unit (s := S4x12800) ![0, 0] S4x12800.size inb_S4x12800_S4x12800_0_0

/-- The output buffer after the body, from the two input buffers: its one store, over the whole buffer. -/
def out2 (x0 : Vec F S12800x128 .f32) (x1 : Vec F S4x128 .f32) : Vec F S4x12800 .f32 :=
  View.canon [⟨rO, k0_pay1 (View.ld x0 rX) (View.ld x1 rW)⟩]

/-- The one store covers the buffer. -/
theorem cover2 (p0 : Vec F S4x12800 .f32) (y : S4x12800.Idx) :
    ∃ pc ∈ ([⟨rO, p0⟩] : List (View.Piece (Elt F) S4x12800 .f32)), y ∈ pc.1.set :=
  View.cover_of_tiled [⟨rO, p0⟩] S4x12800.size (by rfl) y

/-- Every access is at offset zero over the whole buffer, so what the body leaves is the payload itself. -/
theorem out2_eq (x0 : Vec F S12800x128 .f32) (x1 : Vec F S4x128 .f32) : out2 x0 x1 = k0_pay1 x0 x1 := by
  have hz : (![0, 0] : Fin 2 → Nat) = fun _ => 0 := funext fun a => by fin_cases a <;> rfl
  unfold out2
  rw [View.canon_unit_zero hz]
  simp only [View.ld_unit_zero (S := S12800x128) hz, View.ld_unit_zero (S := S4x128) hz]

/-! ## The body's triple -/

/-- The kernel body on whole staging memrefs, the inputs' at contents `x0`, `x1` and the output's at anything, runs to
    the continuation holding the inputs' as they were and the output's at `out2 x0 x1`. -/
theorem sound_kernel (c : Dev nD) (E : Set ℕ) (i : grid0.Coords) (arg1 : Memref sig .tc .vmem S12800x128 .f32) (harg1 : arg1.IsWhole)
    (arg2 : Memref sig .tc .vmem S4x128 .f32) (harg2 : arg2.IsWhole) (arg3 : Memref sig .tc .vmem S4x12800 .f32) (harg3 : arg3.IsWhole)
    (x0 : Vec F S12800x128 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The node block at point `t`, filled out past the array's end with the zero word. -/
def xfill (c : Dev nD) (t : Fin cfg0.N) : S12800x128.Idx → Elt F .f32 :=
  win0_0.fill (grid0.coords t) (fun _ => Scalar.ofBits .f32 0#32) (iblk m c 0 t)

/-- The output buffer after the body at point `t`. -/
def oblk (c : Dev nD) (t : Fin cfg0.N) : S4x12800.Idx → Elt F .f32 :=
  k0_pay1 (xfill m c t) (iblk m c 1 t)

/-- The proof data of the one pipeline on core `c`: the arrays as the region finds them; after the body at point `t`
    the node buffer at its filled block, the weights' at their block, the output's at their product; the class's
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = oblk m c t := by dsimp only [dats]

/-- The node buffer is fetched at every point: it holds the block on the rows inside the array and `d` past them. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The weights' buffer holds their block at every point, fetched there or not. -/
theorem before0_1 (c : Dev nD) (t : Fin cfg0.N) (d) : (dats m 0 c).before 1 t d = iblk m c 1 t :=
  before0_1_of m (dats m 0 c) (A_eq m c 1) (after0_1 m c) t d

/-- The output's buffer is written back at every point, so the body finds it at contents nothing names. -/
theorem before0_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

end Cert.KernelIdeal.Body

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.IdealFrame.lean ====
/-
  The frame of the idealized kernel and its run with every array named, at the extended reals.

  At the ideal values the body's product is  (w·xᵀ)[p, q] = Σ_k w[p, k]·x[q, k]  (`pay_apply`): column `q` reads row
  `q` of the node block and nothing else. At the last grid point the node buffer's rows past the array's end hold
  words nothing names, and the output's columns past the array's end are not written back; the node window cuts its
  rows exactly where the output window cuts its columns (`xsize_facts`), so the columns that ARE written back do not
  depend on those words (`cut_pay_fill`). That is the body obligation of a pipeline whose edge blocks overhang
  (`body_obligation`); the launch theorem for a region followed by host operations gives the run with every array
  named (`run_main`) and the frame (`frame`).
-/
import proofs.«425764_j41918880809002_3_alg».proof.Proof.IdealBody
import proofs.«425764_j41918880809002_3_alg».proof.Proof.LibDotT
import Idealize.ShloMosaic.Lib.Pipeline.FrameSuffix
import Idealize.ShloMosaic.Lib.Pipeline.Value
import Idealize.ShloMosaic.Lib.ValueIdx
import Idealize.ShloMosaic.PureOps.Ideal.Laws

set_option maxRecDepth 16384

noncomputable section

namespace Cert.KernelIdeal.IdealFrame

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open scoped BigOperators

local notation "𝕄" => MT nD τ sig Unit (Elt Ideal) ℕ (UR sig nD τ) ℕ

variable (m : (ℓ : Loc nD τ sig) → Buf (Elt Ideal) ℓ) (ρ : Dev nD → PrngReg)

/-! ## The body's product at an entry -/

/-- At the ideal values the body's payload at entry `(p, q)` is the sum over the 128 features of the weights' row `p`
    times the node block's row `q`: format changes are the identity and the accumulator is zero. -/
theorem pay_apply (x : Vec Ideal S12800x128 .f32) (w : Vec Ideal S4x128 .f32) (p : Fin 4) (q : Fin 12800) :
    k0_pay1 (F := Ideal) x w (ix2 p q) = ∑ k : Fin 128, w (ix2 p k) * x (ix2 q k) := by
  unfold k0_pay1
  refine (DotT.matmul_zero_apply dot_S4x128_S12800x128_S4x12800_1_1_0_0_n_n rfl rfl rfl rfl rfl rfl rfl rfl none
    (truncf .bf16 (shapeCast S4x128 w shapeCasts_S4x128_S4x128) bitsLt_bf16_f32) (truncf .bf16 x bitsLt_bf16_f32) p q).trans ?_
  refine Finset.sum_congr rfl fun k _ => ?_
  rw [truncf_apply, truncf_apply, shapeCast_self]

/-! ## The windows' cuts over the grid -/

/-- At every grid point the output window keeps as many columns as the node window keeps rows, and the node window
    keeps all 128 features. -/
theorem xsize_facts : ∀ t : Fin cfg0.N,
    win0_2.xsize (grid0.coords t) 1 = win0_0.xsize (grid0.coords t) 0 ∧ win0_0.xsize (grid0.coords t) 1 = 128 :=
  (by decide +kernel : ∀ t : Fin grid0.N,
    win0_2.xsize (grid0.coords t) 1 = win0_0.xsize (grid0.coords t) 0 ∧ win0_0.xsize (grid0.coords t) 1 = 128)

/-- The columns the write-back moves do not depend on what fills the node buffer past the array's end. -/
theorem cut_pay_fill (c : Dev nD) (t : Fin cfg0.N) (d0 : S12800x128.Idx → Elt Ideal .f32) :
    win0_2.cut (grid0.coords t) (out2 (win0_0.fill (grid0.coords t) d0 (iblk m c 0 t)) (iblk m c 1 t))
      = win0_2.cut (grid0.coords t) ((dats m 0 c).after 2 t) := by
  funext jj
  show out2 _ _ (win0_2.xinj (grid0.coords t) jj) = (dats m 0 c).after 2 t (win0_2.xinj (grid0.coords t) jj)
  rw [out2_eq, after0_2]; unfold oblk xfill
  obtain ⟨p, q, hpq⟩ : ∃ (p : Fin 4) (q : Fin 12800), win0_2.xinj (grid0.coords t) jj = ix2 p q := ⟨_, _, eq_ix2 _⟩
  have hq : q.val = (jj 1).val := (congrArg (fun j => (j 1).val) hpq).symm
  rw [hpq, pay_apply, pay_apply]
  refine Finset.sum_congr rfl fun k _ => ?_
  congr 1
  have hm : win0_0.moved (grid0.coords t) (ix2 q k) = true := (win0_0.moved_iff _ _).mpr fun a => by
    match a with
    | ⟨0, _⟩ =>
      show q.val < win0_0.xsize (grid0.coords t) 0
      rw [hq, ← (xsize_facts t).1]; exact (jj 1).isLt
    | ⟨1, _⟩ =>
      show k.val < win0_0.xsize (grid0.coords t) 1
      rw [(xsize_facts t).2]; exact k.isLt
  unfold Window.fill; rw [dif_pos hm, dif_pos hm]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the node buffer and the output buffer stated on the part inside their arrays, the weights' as it
    was. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1, before0_2 m c t d2]
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) ((dats m 0 c).after 0 t) = iblk m c 0 t := by
    rw [after0_0]; exact win0_0.cut_fill _ _ _
  have ho : win0_2.fill (grid0.coords t) (out2 (win0_0.fill (grid0.coords t) d0 (iblk m c 0 t)) (iblk m c 1 t))
      (win0_2.cut (grid0.coords t) ((dats m 0 c).after 2 t))
      = out2 (win0_0.fill (grid0.coords t) d0 (iblk m c 0 t)) (iblk m c 1 t) :=
    win0_2.fill_congr_cut (grid0.coords t) (cut_pay_fill m c t d0)
  isplitl [H0]
  · iexists d0; rw [hx]; iexact H0
  isplitl [H1]
  · rw [after0_1]; iexact H1
  · iexists (out2 (win0_0.fill (grid0.coords t) d0 (iblk m c 0 t)) (iblk m c 1 t)); rw [ho]; iexact H2

/-- The library's body obligation, at every point. -/
theorem body_obligation (c : Dev nD) :
    BodyObligationLoose (dats (F := Ideal) m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer at what the host operations after the region
    leave in it. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.IdealFrame

end
-- ==== Proof.RegionValue.lean ====
/-
  The projection array after the region, as one function of the node features and the stacked weights.

  Point `t` of the grid stages rows `12800·t …` of the node array and writes back columns `12800·t …` of the result,
  both cut at 100000 (`idx_facts`, decided over the 8 points). What it writes back, at column `q` of the block, is
  `Σ_k Wst[p, k]·h[12800·t + q, k]`: entry `(p, 12800·t + q)` of the projection of every node (`flushed_eq`). Every
  column `n < 100000` lies in the block of point `n / 12800` (`cover`), so the array ends holding that projection
  (`final`).
-/
import proofs.«425764_j41918880809002_3_alg».proof.Proof.IdealFrame
import proofs.«425764_j41918880809002_3_alg».proof.Proof.Spec

set_option maxRecDepth 16384

noncomputable section

namespace Cert.KernelIdeal.RegionValue

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open scoped BigOperators

open Cert.KernelIdeal.IdealFrame

variable (m : (ℓ : Loc nD τ sig) → Buf (Elt Ideal) ℓ) (ρ : Dev nD → PrngReg)

/-- The projection of every node on the stacked weights, as the region finds them. -/
def PT (c : Dev nD) : S4x100000.Idx → EReal :=
  Cert.Spec.projAll (V m c main_arg0 : S100000x128.Idx → EReal) (V m c main_v2 : S4x128.Idx → EReal)

/-- The printed index maps and cuts, decided over the grid: the node window moves down the rows and the result window
    along the columns with the point, the weights' window stays; the result's block keeps all 4 rows and its columns
    up to the array's end. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_2.xsize (grid0.coords t) 0 = 4
    ∧ (win0_2.xsize (grid0.coords t) 1 = 12800 ∨ 12800 * t.val + win0_2.xsize (grid0.coords t) 1 = 100000)
    ∧ 12800 * t.val + win0_2.xsize (grid0.coords t) 1 ≤ 100000 :=
  (by decide +kernel : ∀ t : Fin grid0.N, _)

/-- WHAT POINT `t` WRITES BACK is block `t`, cut at the array's end, of the projection of every node. -/
theorem flushed_eq (c : Dev nD) (t : Fin cfg0.N) :
    (dats m 0 c).flushed 2 t = ((cfg0.win 2).blk t).view.read (Elt Ideal) (PT m c) := by
  show win0_2.cut (grid0.coords t) ((dats m 0 c).after 2 t) = _
  rw [after0_2]; unfold oblk
  obtain ⟨e00, e01, e10, e11, e20, e21, -, -, -⟩ := idx_facts t
  funext jj
  show k0_pay1 (xfill m c t) (iblk m c 1 t) (win0_2.xinj (grid0.coords t) jj) = PT m c (((cfg0.win 2).blk t).view.emb jj)
  obtain ⟨p, q, hpq⟩ : ∃ (p : Fin 4) (q : Fin 12800), win0_2.xinj (grid0.coords t) jj = ix2 p q := ⟨_, _, eq_ix2 _⟩
  have hp : p.val = (jj 0).val := (congrArg (fun j => (j 0).val) hpq).symm
  have hq : q.val = (jj 1).val := (congrArg (fun j => (j 1).val) hpq).symm
  have hE0 : ((((cfg0.win 2).blk t).view.emb jj) 0).val = win0_2.index t (0 : Fin 2) * 4 + 1 * (jj 0).val := rfl
  have hE1 : ((((cfg0.win 2).blk t).view.emb jj) 1).val = win0_2.index t (1 : Fin 2) * 12800 + 1 * (jj 1).val := rfl
  rw [hpq, pay_apply]
  unfold PT Cert.Spec.projAll
  refine Finset.sum_congr rfl fun k _ => ?_
  congr 1
  · -- the weights' block is the whole stacked array
    show V m c main_v2 (((cfg0.win 1).blk t).view.emb (ix2 p k)) = V m c main_v2 _
    refine congrArg _ (funext fun a => Fin.ext ?_)
    match a with
    | ⟨0, _⟩ =>
      show win0_1.index t (0 : Fin 2) * 4 + 1 * p.val = ((((cfg0.win 2).blk t).view.emb jj) 0).val
      rw [hE0]; omega
    | ⟨1, _⟩ =>
      show win0_1.index t (1 : Fin 2) * 128 + 1 * k.val = k.val
      omega
  · -- the node block's row q, inside the array, is row 12800·t + q of the node array
    have hm : win0_0.moved (grid0.coords t) (ix2 q k) = true := (win0_0.moved_iff _ _).mpr fun a => by
      match a with
      | ⟨0, _⟩ =>
        show q.val < win0_0.xsize (grid0.coords t) 0
        rw [hq, ← (xsize_facts t).1]; exact (jj 1).isLt
      | ⟨1, _⟩ =>
        show k.val < win0_0.xsize (grid0.coords t) 1
        rw [(xsize_facts t).2]; exact k.isLt
    unfold xfill Window.fill; rw [dif_pos hm]
    show V m c main_arg0 (((cfg0.win 0).blk t).view.emb _) = V m c main_arg0 _
    refine congrArg _ (funext fun a => Fin.ext ?_)
    match a with
    | ⟨0, _⟩ =>
      show win0_0.index t (0 : Fin 2) * 12800 + 1 * q.val = ((((cfg0.win 2).blk t).view.emb jj) 1).val
      rw [hE1]; omega
    | ⟨1, _⟩ =>
      show win0_0.index t (1 : Fin 2) * 128 + 1 * k.val = k.val
      omega

/-- An index of the array is in point `t`'s block iff each coordinate is in the block's range, cut at the array's end. -/
theorem mem_blk (t : Fin cfg0.N) (i : S4x100000.Idx) :
    i ∈ ((cfg0.win 2).blk t).view.set ↔ ∀ a : Fin 2, win0_2.index t a * S4x12800.size a ≤ (i a).val
      ∧ (i a).val < win0_2.index t a * S4x12800.size a + win0_2.xsize (grid0.coords t) a := by
  show i ∈ ((View.whole main_v3).slice (win0_2.rect t)).set ↔ _
  rw [View.set_slice_whole, Rect.mem_set_unit]
  exact Iff.rfl

/-- Every index of the array is in the block of the point its column falls in. -/
theorem cover (i : S4x100000.Idx) : ∃ t : Fin cfg0.N, (cfg0.win 2).flush t = true ∧ i ∈ ((cfg0.win 2).blk t).view.set := by
  have hi0 : (i 0).val < 4 := (i 0).isLt
  have hi1 : (i 1).val < 100000 := (i 1).isLt
  have hN : (i 1).val / 12800 < cfg0.N := by show _ < grid0.N; rw [N_0]; omega
  refine ⟨⟨(i 1).val / 12800, hN⟩, flush0_2 _, ?_⟩
  obtain ⟨-, -, -, -, e20, e21, x0, x1, x2⟩ := idx_facts ⟨(i 1).val / 12800, hN⟩
  rw [mem_blk]
  intro a
  match a with
  | ⟨0, _⟩ =>
    show win0_2.index ⟨(i 1).val / 12800, hN⟩ (0 : Fin 2) * 4 ≤ (i 0).val
      ∧ (i 0).val < win0_2.index ⟨(i 1).val / 12800, hN⟩ (0 : Fin 2) * 4 + win0_2.xsize (grid0.coords ⟨(i 1).val / 12800, hN⟩) 0
    rw [e20, x0]; omega
  | ⟨1, _⟩ =>
    show win0_2.index ⟨(i 1).val / 12800, hN⟩ (1 : Fin 2) * 12800 ≤ (i 1).val
      ∧ (i 1).val < win0_2.index ⟨(i 1).val / 12800, hN⟩ (1 : Fin 2) * 12800 + win0_2.xsize (grid0.coords ⟨(i 1).val / 12800, hN⟩) 1
    rw [e21]
    have hx : (⟨(i 1).val / 12800, hN⟩ : Fin cfg0.N).val = (i 1).val / 12800 := rfl
    rw [hx] at x1 x2
    omega

/-- THE ARRAY after the run: the projection of every node on the stacked weights. -/
theorem final (c : Dev nD) : (dats m 0 c).arrAt 2 cfg0.N = PT m c :=
  (dats m 0 c).arrAt_eq_of_cover 2 (PT m c) (fun t _ => flushed_eq m c t) cover

end Cert.KernelIdeal.RegionValue

end
-- ==== Proof.StackValue.lean ====
/-
  The stacked weights as the region finds them.

  Before the region @main slices `W : [2, 256]` into its two column halves and concatenates them along the rows. So row
  `r` of the stack is row `r mod 2` of `W` and its column `k` is column `128·(r / 2) + k`: rows 0, 1 the first half,
  rows 2, 3 the second (`Cert.Spec.stackW`).
-/
import proofs.«425764_j41918880809002_3_alg».proof.Proof.Gen.KernelIdeal.Frame
import proofs.«425764_j41918880809002_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.StackValue

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The stack as the host operations' term of the weights. -/
theorem stack_term (c : Dev nD) :
    (V m c main_v2 : S4x128.Idx → EReal)
      = concatenate S4x128 0
          [⟨S2x128, extractStridedSlice S2x128 ![0, 0] (m ((c : Thread nD τ).loc main_arg1) : S2x256.Idx → EReal) slices_S2x256_S2x128_0_0⟩,
           ⟨S2x128, extractStridedSlice S2x128 ![0, 128] (m ((c : Thread nD τ).loc main_arg1) : S2x256.Idx → EReal) slices_S2x256_S2x128_0_128⟩]
          concatenates_S2x128_S2x128_S4x128_d0 := by
  show StableHlo.after hostOps0 (fun b => m (c, b)) (Proc.devRef .tc main_v2) = _
  after_results

/-- A slice of the weights at an index: the same row, the column moved by the slice's offset. -/
theorem slice_apply (W : S2x256.Idx → EReal) (off : Fin 2 → Nat) (h : S2x256.Slices off S2x128) (hoff0 : off 0 = 0)
    (r : Fin 2) (k : Fin 128) (col : Fin 256) (hcol : col.val = off 1 + k.val) :
    extractStridedSlice S2x128 off W h (ix2 r k) = W (ix2 r col) :=
  extractStridedSlice_apply off W h (ix2 r k) (ix2 r col) fun a => by
    match a with
    | ⟨0, _⟩ => show r.val = off 0 + r.val; rw [hoff0]; omega
    | ⟨1, _⟩ => exact hcol

/-- Two blocks of two rows concatenated along the rows: rows 0, 1 are the first block's, rows 2, 3 the second's. -/
theorem concat_rows (x1 x2 : S2x128.Idx → EReal) (r : Fin 4) (k : Fin 128) :
    concatenate S4x128 0 [⟨S2x128, x1⟩, ⟨S2x128, x2⟩] concatenates_S2x128_S2x128_S4x128_d0 (ix2 r k)
      = if h : r.val < 2 then x1 (ix2 (⟨r.val, h⟩ : Fin 2) k) else x2 (ix2 (⟨r.val - 2, by omega⟩ : Fin 2) k) := by
  split
  · rename_i h
    exact concatenate_pair_apply_left (t := S4x128) (s₁ := S2x128) (s₂ := S2x128) (0 : Fin 2) x1 x2
      concatenates_S2x128_S2x128_S4x128_d0 (ix2 r k) rfl (ix2 (⟨r.val, h⟩ : Fin 2) k)
      (fun b => by match b with | ⟨0, _⟩ => rfl | ⟨1, _⟩ => rfl)
  · rename_i h
    have hr4 : r.val < 4 := r.isLt
    exact concatenate_pair_apply_right (t := S4x128) (s₁ := S2x128) (s₂ := S2x128) (0 : Fin 2) x1 x2
      concatenates_S2x128_S2x128_S4x128_d0 (ix2 r k) rfl rfl (ix2 (⟨r.val - 2, by omega⟩ : Fin 2) k)
      (fun b hb => by match b with | ⟨0, _⟩ => exact absurd rfl hb | ⟨1, _⟩ => rfl)
      (by show r.val - 2 + 2 = r.val; omega)

/-- THE STACK, index by index. -/
theorem stack_eq (c : Dev nD) :
    (V m c main_v2 : S4x128.Idx → EReal) = Cert.Spec.stackW (m ((c : Thread nD τ).loc main_arg1) : S2x256.Idx → EReal) := by
  rw [stack_term]
  generalize (m ((c : Thread nD τ).loc main_arg1) : S2x256.Idx → EReal) = W
  funext i
  obtain ⟨r, k, rfl⟩ : ∃ (r : Fin 4) (k : Fin 128), i = ix2 r k := ⟨i 0, i 1, eq_ix2 i⟩
  rw [concat_rows]
  unfold Cert.Spec.stackW
  have hr4 : r.val < 4 := r.isLt
  split
  · rename_i hr
    rw [slice_apply W ![0, 0] slices_S2x256_S2x128_0_0 rfl ⟨r.val, hr⟩ k ⟨k.val, by omega⟩ (by show k.val = 0 + k.val; omega)]
    refine congrArg W (funext fun a => Fin.ext ?_)
    match a with
    | ⟨0, _⟩ => show r.val = r.val % 2; omega
    | ⟨1, _⟩ => show k.val = 128 * (r.val / 2) + k.val; omega
  · rename_i hr
    rw [slice_apply W ![0, 128] slices_S2x256_S2x128_0_128 rfl ⟨r.val - 2, by omega⟩ k ⟨128 + k.val, by omega⟩ rfl]
    refine congrArg W (funext fun a => Fin.ext ?_)
    match a with
    | ⟨0, _⟩ => show r.val - 2 = r.val % 2; omega
    | ⟨1, _⟩ => show 128 + k.val = 128 * (r.val / 2) + k.val; omega

end Cert.KernelIdeal.StackValue

end
-- ==== Proof.TailValue.lean ====
/-
  The kernel's host operations after the projection, as one function of the projection table, the bias and the two index
  vectors, and that function read at an index.

  From the table P : [4, 100000] the program transposes, cuts the columns {0, 1} and {2, 3} apart, clips each edge index
  into [0, 99999] and wraps a negative one by the node count, gathers one row of each half per edge, adds the two and
  adds the bias. At edge e and class c that is P[c, row(s e)] + P[2 + c, row(d e)] + b[c], with row the gather's clamp.
-/
import proofs.«425764_j41918880809002_3_alg».proof.Proof.Gen.KernelIdeal.Launch
import proofs.«425764_j41918880809002_3_alg».proof.Proof.Spec
import proofs.«425764_j41918880809002_3_alg».proof.Proof.LibRowGather
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.TailValue

open Idealize.ShloMosaic Idealize.ShloMosaic.ValueIdx Idealize.SL.Sem
open Cert.KernelIdeal Cert.KernelIdeal.Gen

/-- The index chain of one endpoint: clip into [0, 99999], then wrap a negative word by the node count. -/
def idxFn (s : (⟨S640000, .i32⟩ : BufTy).Contents (Elt Ideal)) : (⟨S640000, .i32⟩ : BufTy).Contents (Elt Ideal) :=
  let lo : (⟨S640000, .i32⟩ : BufTy).Contents (Elt Ideal) := broadcastInDim S640000 ![] bcast_S_S640000 (id (constantI S_ 32 0#32))
  let hi : (⟨S640000, .i32⟩ : BufTy).Contents (Elt Ideal) := broadcastInDim S640000 ![] bcast_S_S640000 (id (constantI S_ 32 99999#32))
  let cl : (⟨S640000, .i32⟩ : BufTy).Contents (Elt Ideal) := minsi hi (maxsi lo s)
  let z : (⟨S640000, .i32⟩ : BufTy).Contents (Elt Ideal) := broadcastInDim S640000 ![] bcast_S_S640000 (constantI S_ 32 0#32)
  let n : (⟨S640000, .i32⟩ : BufTy).Contents (Elt Ideal) := broadcastInDim S640000 ![] bcast_S_S640000 (constantI S_ 32 100000#32)
  select (cmpi .slt cl z) (addi cl n) cl

/-- The host operations after the region, composed. -/
def tailFn (P : (⟨S4x100000, .f32⟩ : BufTy).Contents (Elt Ideal)) (b : (⟨S2, .f32⟩ : BufTy).Contents (Elt Ideal))
    (src dst : (⟨S640000, .i32⟩ : BufTy).Contents (Elt Ideal)) : (⟨S640000x2, .f32⟩ : BufTy).Contents (Elt Ideal) :=
  let v4 : (⟨S100000x4, .f32⟩ : BufTy).Contents (Elt Ideal) := transpose S100000x4 [1, 0] P transposes_S4x100000_S100000x4_1_0
  let v5 : (⟨S100000x2, .f32⟩ : BufTy).Contents (Elt Ideal) := extractStridedSlice S100000x2 ![0, 0] v4 slices_S100000x4_S100000x2_0_0
  let v6 : (⟨S100000x2, .f32⟩ : BufTy).Contents (Elt Ideal) := extractStridedSlice S100000x2 ![0, 2] v4 slices_S100000x4_S100000x2_0_2
  let i14 : (⟨S640000x1, .i32⟩ : BufTy).Contents (Elt Ideal) := broadcastInDim S640000x1 ![0] bcast_S640000_S640000x1_0 (idxFn src)
  let i21 : (⟨S640000x1, .i32⟩ : BufTy).Contents (Elt Ideal) := broadcastInDim S640000x1 ![0] bcast_S640000_S640000x1_0 (idxFn dst)
  let v15 : (⟨S640000x2, .f32⟩ : BufTy).Contents (Elt Ideal) := Host.gather gather_S100000x2_S640000x1_S640000x2_1_0_n_n_0_1_12 v5 i14
  let v22 : (⟨S640000x2, .f32⟩ : BufTy).Contents (Elt Ideal) := Host.gather gather_S100000x2_S640000x1_S640000x2_1_0_n_n_0_1_12 v6 i21
  let v24 : (⟨S1x2, .f32⟩ : BufTy).Contents (Elt Ideal) := shapeCast S1x2 b shapeCasts_S2_S1x2
  let v25 : (⟨S640000x2, .f32⟩ : BufTy).Contents (Elt Ideal) := broadcastInDim S640000x2 ![0, 1] bcast_S1x2_S640000x2_0_1 v24
  addf (F := Ideal) (s := S640000x2) (φ := .f32)
    (addf (F := Ideal) (s := S640000x2) (φ := .f32) v15 v22) v25

/-- What the result buffer holds after the host operations that follow the region, from any contents. -/
theorem after_tail (Vw : Valuation τ sig (Elt Ideal)) :
    StableHlo.after (List.flatten [hostOps1, hostOps1_1, hostOps1_2, hostOps1_3, hostOps1_4] : List (HloOp τ sig (Elt Ideal))) Vw (Proc.devRef .tc main_v26)
      = tailFn (Vw (Proc.devRef .tc main_v3)) (Vw (Proc.devRef .tc main_arg2)) (Vw (Proc.devRef .tc main_arg3)) (Vw (Proc.devRef .tc main_arg4)) := by
  simp only [hostOps1, hostOps1_1, hostOps1_2, hostOps1_3, hostOps1_4, List.flatten_cons, List.flatten_nil, List.append_nil,
    List.cons_append, List.nil_append]
  after_results_simp
  simp only [StableHlo.TRef.ofBuf, StableHlo.TRef.toBuf, cast_eq]
  rfl

/-! ## The composed function read at an index -/

/-- The index chain at an edge is the clip and then the wrap of that edge's word: every operation of it is pointwise, and a
    broadcast scalar constant is its word everywhere. -/
theorem idxFn_apply (s : (⟨S640000, .i32⟩ : BufTy).Contents (Elt Ideal)) (i : S640000.Idx) :
    idxFn s i = Cert.Spec.wrapWord (Cert.Spec.clipWord (s i)) := rfl

/-- The transposed table at (n, r) is the table at (r, n). -/
theorem tr_apply (P : (⟨S4x100000, .f32⟩ : BufTy).Contents (Elt Ideal)) (n : Fin 100000) (r : Fin 4) :
    transpose S100000x4 [1, 0] P transposes_S4x100000_S100000x4_1_0 (ix2 n r) = P (ix2 r n) :=
  ValueIdx.transpose_ix2_apply P transposes_S4x100000_S100000x4_1_0 n r

/-- The first two columns. -/
theorem lo_apply (X : (⟨S100000x4, .f32⟩ : BufTy).Contents (Elt Ideal)) (n : Fin 100000) (c : Fin 2) :
    extractStridedSlice S100000x2 ![0, 0] X slices_S100000x4_S100000x2_0_0 (ix2 n c) = X (ix2 n (⟨c.val, by omega⟩ : Fin 4)) :=
  ValueIdx.slice2_axis1_apply 0 X slices_S100000x4_S100000x2_0_0 n c ⟨c.val, by omega⟩ (Nat.zero_add _).symm

/-- The last two columns. -/
theorem hi_apply (X : (⟨S100000x4, .f32⟩ : BufTy).Contents (Elt Ideal)) (n : Fin 100000) (c : Fin 2) :
    extractStridedSlice S100000x2 ![0, 2] X slices_S100000x4_S100000x2_0_2 (ix2 n c) = X (ix2 n (⟨2 + c.val, by omega⟩ : Fin 4)) :=
  ValueIdx.slice2_axis1_apply 2 X slices_S100000x4_S100000x2_0_2 n c ⟨2 + c.val, by omega⟩ rfl

/-- An index vector given a unit trailing axis reads, at (e, 0), the vector at e. -/
theorem col_apply (v : (⟨S640000, .i32⟩ : BufTy).Contents (Elt Ideal)) (e : Fin 640000) (u : Fin 1) :
    broadcastInDim S640000x1 ![0] bcast_S640000_S640000x1_0 v (ix2 e u) = v (ix1 e) :=
  broadcastInDim_apply _ bcast_S640000_S640000x1_0 v (ix2 e u) (ix1 e) (fun a => match a with
    | ⟨0, _⟩ => by show e.val = if (640000 : Nat) = 1 then 0 else e.val; rw [if_neg (by decide)])

/-- The program's gather dimension numbers are the row gather's. -/
theorem gdims_eq : gather_S100000x2_S640000x1_S640000x2_1_0_n_n_0_1_12
    = Cert.LibRowGather.rowDims 100000 2 640000 gather_S100000x2_S640000x1_S640000x2_1_0_n_n_0_1_12_wf := rfl

/-- The gather at (e, c): the operand's row named by the start index at (e, 0), clamped into [0, 99999], at column c. -/
theorem gath_apply (X : (⟨S100000x2, .f32⟩ : BufTy).Contents (Elt Ideal)) (idx : (⟨S640000x1, .i32⟩ : BufTy).Contents (Elt Ideal))
    (y : S640000x2.Idx) :
    Host.gather gather_S100000x2_S640000x1_S640000x2_1_0_n_n_0_1_12 X idx y
      = X (ix2 (⟨min (idx (ix2 (⟨(y 0).val, idx2_lt0 y⟩ : Fin 640000) (0 : Fin 1))).toInt.toNat 99999, by omega⟩ : Fin 100000)
            (⟨(y 1).val, idx2_lt1 y⟩ : Fin 2)) := by
  rw [gdims_eq]
  exact Cert.LibRowGather.gather_rows_apply (by decide) gather_S100000x2_S640000x1_S640000x2_1_0_n_n_0_1_12_wf X idx y

/-- The gather through a column of index words, at (e, c): the operand's row named by the word at e, at column c. -/
theorem gathcol_apply (X : (⟨S100000x2, .f32⟩ : BufTy).Contents (Elt Ideal)) (v : (⟨S640000, .i32⟩ : BufTy).Contents (Elt Ideal))
    (y : S640000x2.Idx) :
    Host.gather gather_S100000x2_S640000x1_S640000x2_1_0_n_n_0_1_12 X (broadcastInDim S640000x1 ![0] bcast_S640000_S640000x1_0 v) y
      = X (ix2 (Cert.Spec.rowOf (v (ix1 (⟨(y 0).val, idx2_lt0 y⟩ : Fin 640000)))) (⟨(y 1).val, idx2_lt1 y⟩ : Fin 2)) := by
  rw [gath_apply]
  refine congrArg (fun n : Fin 100000 => X (ix2 n (⟨(y 1).val, idx2_lt1 y⟩ : Fin 2))) (Fin.ext ?_)
  show min (broadcastInDim S640000x1 ![0] bcast_S640000_S640000x1_0 v (ix2 (⟨(y 0).val, idx2_lt0 y⟩ : Fin 640000) (0 : Fin 1))).toInt.toNat 99999
    = min (v (ix1 (⟨(y 0).val, idx2_lt0 y⟩ : Fin 640000))).toInt.toNat 99999
  rw [col_apply]

/-- The bias given a unit leading axis and repeated over the edges reads, at (e, c), the bias at c. -/
theorem bias_apply (b : (⟨S2, .f32⟩ : BufTy).Contents (Elt Ideal)) (y : S640000x2.Idx) :
    broadcastInDim S640000x2 ![0, 1] bcast_S1x2_S640000x2_0_1 (shapeCast S1x2 b shapeCasts_S2_S1x2) y
      = b (ix1 (⟨(y 1).val, idx2_lt1 y⟩ : Fin 2)) := by
  refine (broadcastInDim_apply _ bcast_S1x2_S640000x2_0_1 (shapeCast S1x2 b shapeCasts_S2_S1x2) y
    (ix2 (0 : Fin 1) (⟨(y 1).val, idx2_lt1 y⟩ : Fin 2)) (fun a => match a with
      | ⟨0, _⟩ => by show (0 : Nat) = if (1 : Nat) = 1 then 0 else (y 0).val; rw [if_pos rfl]
      | ⟨1, _⟩ => by show (y 1).val = if (2 : Nat) = 1 then 0 else (y 1).val; rw [if_neg (by decide)])).trans ?_
  exact ValueIdx.shapeCast_a_1a_apply b shapeCasts_S2_S1x2 (0 : Fin 1) (⟨(y 1).val, idx2_lt1 y⟩ : Fin 2)

/-- THE TAIL IS THE TABLE READ: at edge e and class c, P[c, row(s e)] + P[2 + c, row(d e)] + b[c], the rows named by the clipped
    and then wrapped index words. -/
theorem tailFn_eq (P : (⟨S4x100000, .f32⟩ : BufTy).Contents (Elt Ideal)) (b : (⟨S2, .f32⟩ : BufTy).Contents (Elt Ideal))
    (src dst : (⟨S640000, .i32⟩ : BufTy).Contents (Elt Ideal)) :
    tailFn P b src dst = Cert.Spec.kscore P b (fun i => Cert.Spec.wrapWord (Cert.Spec.clipWord (src i)))
      (fun i => Cert.Spec.wrapWord (Cert.Spec.clipWord (dst i))) := by
  funext y
  unfold tailFn Cert.Spec.kscore Cert.Spec.kscoreAt
  dsimp only
  rw [addf_apply, addf_apply, bias_apply, gathcol_apply, gathcol_apply, lo_apply, hi_apply, tr_apply, tr_apply, idxFn_apply, idxFn_apply]

end Cert.KernelIdeal.TailValue

end
-- ==== Proof.KernelValue.lean ====
/-
  The idealized kernel's result.

  After the region the result array holds the projection of every node on the stacked weights; the host operations that
  follow read, for each edge and class, two entries of it at the rows the clipped and then wrapped index words name, and
  add the bias. So the program's result is `kscore (projAll h (stackW W)) b …` of its own arguments (`result_eq`), and
  the run that names every array re-posts as: the result buffer at that value, the five arguments unchanged (`run`).
-/
import proofs.«425764_j41918880809002_3_alg».proof.Proof.RegionValue
import proofs.«425764_j41918880809002_3_alg».proof.Proof.StackValue
import proofs.«425764_j41918880809002_3_alg».proof.Proof.TailValue

set_option maxRecDepth 16384

noncomputable section

namespace Cert.KernelIdeal.KernelValue

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open scoped BigOperators

open Cert.KernelIdeal.IdealFrame Cert.KernelIdeal.RegionValue

variable (m : (ℓ : Loc nD τ sig) → Buf (Elt Ideal) ℓ) (ρ : Dev nD → PrngReg)

/-- The index words the kernel gathers at: the clip, then the wrap, of an argument's words. -/
abbrev kwords (x : S640000.Idx → BitVec 32) : S640000.Idx → BitVec 32 :=
  fun i => Cert.Spec.wrapWord (Cert.Spec.clipWord (x i))

/-- The kernel's result as a function of its arguments on core `c`. -/
def value (c : Dev nD) : S640000x2.Idx → EReal :=
  Cert.Spec.kscore
    (Cert.Spec.projAll (m ((c.tc : Thread nD τ).loc main_arg0) : S100000x128.Idx → EReal) (Cert.Spec.stackW (m ((c.tc : Thread nD τ).loc main_arg1) : S2x256.Idx → EReal)))
    (m ((c.tc : Thread nD τ).loc main_arg2) : S2.Idx → EReal) (kwords (m ((c.tc : Thread nD τ).loc main_arg3))) (kwords (m ((c.tc : Thread nD τ).loc main_arg4)))

/-- The projection the region leaves is the projection of the ARGUMENTS: the node array is found as launched and the
    stacked weights are the two column halves of `W`. -/
theorem PT_eq (c : Dev nD) :
    PT m c = Cert.Spec.projAll (m ((c.tc : Thread nD τ).loc main_arg0) : S100000x128.Idx → EReal) (Cert.Spec.stackW (m ((c.tc : Thread nD τ).loc main_arg1) : S2x256.Idx → EReal)) := by
  unfold PT
  rw [StackValue.stack_eq m c, V_main_arg0 m c]

/-- What the result buffer holds after the host operations that follow the region. -/
theorem result_eq (c : Dev nD) :
    Pipeline.afterTail₀ cfgs (dats m) 0 (V0 m) [hostOps1, hostOps1_1, hostOps1_2, hostOps1_3, hostOps1_4] c main_v26 = value m c := by
  have e3 : Pipeline.withArrays (cfgs (0 : Fin 1)).spec c (V0 m c) (fun w => (dats m 0 c).arrAt w (cfgs (0 : Fin 1)).N) (Proc.devRef .tc main_v3) = PT m c :=
    (Pipeline.withArrays_arr spec0 launch0.win.arr_inj c (V0 m c) _ 2).trans (final m c)
  have e2 : Pipeline.withArrays (cfgs (0 : Fin 1)).spec c (V0 m c) (fun w => (dats m 0 c).arrAt w (cfgs (0 : Fin 1)).N) (Proc.devRef .tc main_arg2) = m ((c.tc : Thread nD τ).loc main_arg2) :=
    (Pipeline.withArrays_of_ne spec0 c (V0 m c) _ main_arg2 (by exact (by decide : ∀ w, Pipeline.arrRef spec0 w ≠ main_arg2))).trans (V_main_arg2 m c)
  have e4 : Pipeline.withArrays (cfgs (0 : Fin 1)).spec c (V0 m c) (fun w => (dats m 0 c).arrAt w (cfgs (0 : Fin 1)).N) (Proc.devRef .tc main_arg3) = m ((c.tc : Thread nD τ).loc main_arg3) :=
    (Pipeline.withArrays_of_ne spec0 c (V0 m c) _ main_arg3 (by exact (by decide : ∀ w, Pipeline.arrRef spec0 w ≠ main_arg3))).trans (V_main_arg3 m c)
  have e5 : Pipeline.withArrays (cfgs (0 : Fin 1)).spec c (V0 m c) (fun w => (dats m 0 c).arrAt w (cfgs (0 : Fin 1)).N) (Proc.devRef .tc main_arg4) = m ((c.tc : Thread nD τ).loc main_arg4) :=
    (Pipeline.withArrays_of_ne spec0 c (V0 m c) _ main_arg4 (by exact (by decide : ∀ w, Pipeline.arrRef spec0 w ≠ main_arg4))).trans (V_main_arg4 m c)
  unfold Pipeline.afterTail₀
  rw [TailValue.after_tail, e3, e2, e4, e5, TailValue.tailFn_eq, PT_eq]
  rfl

/-- The run of the idealized kernel: the result buffer at `value`, the five arguments unchanged. -/
theorem run : θ_run defs (onTc (τ := τ) (main (F := Ideal))) ⟨m, fun _ => 0, ρ⟩ (fun r => ∀ c : Dev nD,
      r.2.mem ((c.tc : Thread nD τ).loc main_v26) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h c).2 main_v26 (Pipeline.mem_restRefs_of main_v26 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelValue

end
-- ==== Proof.lean ====
/-
  The certificate's claim: the three frames, the idealization, and the equivalence over the extended reals, under the
  precondition "every float input is finite and every edge index is non-negative".

  The mathematics. The reference scores edge `e` for class `c` as
      Σ_k h[s_e, k]·W[c, k] + Σ_k h[d_e, k]·W[c, 128 + k] + b[c],
  the rows `s_e`, `d_e` read off the index words after a negative one is wrapped by the node count and the result
  clamped into the node range. The kernel projects every node once on the four rows of the stacked column halves of `W`
  and reads, per edge, two entries of that table, at rows named by the index words clipped into the node range first.
  Products of extended reals commute and the stack's row `2·half + c` is column half `half` of row `c`, so the table
  read IS the edge-wise sum (`Cert.Spec.kscore_proj_eq_score`); and on a NON-NEGATIVE index word both index chains
  are the plain clamp (`rowOf_wrap_of_nonneg`, `rowOf_wrap_clip_of_nonneg`), which is where the precondition's index
  conjuncts are used: on a word in `(−100000, 0)` the reference wraps to a row the kernel's clip never reaches. No
  distributivity is used, so the finiteness conjuncts are not opened.

  The frames. The kernel's region stages blocks of 12800 nodes of a 100000-node array, so its last block overhangs. At
  the extended reals the product's column `q` reads the block's row `q` only, so what is written back does not depend
  on the words past the array's end, and the run names every array (`IdealFrame`); at bit patterns the frame is proved
  with the output's contents not named at all (`BitsFrame`). The reference has no kernel: its frame is its run with the
  result dropped.
-/
import proofs.«425764_j41918880809002_3_alg».proof.Defs
import proofs.«425764_j41918880809002_3_alg».proof.Proof.Gen.Kernel
import proofs.«425764_j41918880809002_3_alg».proof.Proof.Gen.KernelIdeal
import proofs.«425764_j41918880809002_3_alg».proof.Proof.Gen.ReferenceIdeal
import proofs.«425764_j41918880809002_3_alg».proof.Proof.Gen.Pre_finite_inputs
import proofs.«425764_j41918880809002_3_alg».proof.Proof.Gen.ReferenceIdeal.Run
import proofs.«425764_j41918880809002_3_alg».proof.Proof.Gen.ReferenceIdeal.Read
import proofs.«425764_j41918880809002_3_alg».proof.Proof.Spec
import proofs.«425764_j41918880809002_3_alg».proof.Proof.PreDecode
import proofs.«425764_j41918880809002_3_alg».proof.Proof.RefValue
import proofs.«425764_j41918880809002_3_alg».proof.Proof.BitsFrame
import proofs.«425764_j41918880809002_3_alg».proof.Proof.IdealFrame
import proofs.«425764_j41918880809002_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.BitsFrame.frame (F := Bits) m ρ

theorem frame_ki : Cert.frame_KernelIdeal := fun m ρ _ => Cert.KernelIdeal.IdealFrame.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- Both programs, run from memories that agree on the arguments, end with the edge-wise score of those arguments. -/
theorem algebraic : Cert.algebraic_KernelIdeal_ReferenceIdeal := by
  intro m ρ m' ρ' hpre hagree
  -- the precondition's index conjuncts: every source and destination word is non-negative
  have hnn : ∀ c : Dev Cert.KernelIdeal.nD,
      (∀ i, 0 ≤ ((m ((c.tc : Thread Cert.KernelIdeal.nD Cert.KernelIdeal.τ).loc Cert.KernelIdeal.main_arg3)) i).toInt) ∧ (∀ i, 0 ≤ ((m ((c.tc : Thread Cert.KernelIdeal.nD Cert.KernelIdeal.τ).loc Cert.KernelIdeal.main_arg4)) i).toInt) :=
    fun c => Cert.PreDecode.nonneg_of_pre _ _ _ _ _ (hpre c)
  refine ⟨fun c => Cert.Spec.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · -- the kernel: the table read is the edge-wise sum, and clip-then-wrap is the clamp on non-negative words
    refine (θ_run Cert.KernelIdeal.defs _ _).mono (fun r h c => ⟨(h c).1.trans ?_, (h c).2⟩) (Cert.KernelIdeal.KernelValue.run m ρ)
    unfold Cert.KernelIdeal.KernelValue.value
    rw [Cert.Spec.kscore_proj_eq_score]
    exact Cert.Spec.score_congr _ _ _ _ _ _ _
      (fun i => Cert.Spec.rowOf_wrap_clip_of_nonneg _ ((hnn c).1 i)) (fun i => Cert.Spec.rowOf_wrap_clip_of_nonneg _ ((hnn c).2 i))
  · -- the reference: its run's term is the edge-wise sum at the wrapped words, and the wrap is the clamp on non-negative words
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v21_eq, Cert.ReferenceIdeal.RefValue.ref_value,
      (hagree c).1, (hagree c).2.1, (hagree c).2.2.1, (hagree c).2.2.2.1, (hagree c).2.2.2.2]
    exact Cert.Spec.score_congr _ _ _ _ _ _ _
      (fun i => Cert.Spec.rowOf_wrap_of_nonneg _ ((hnn c).1 i)) (fun i => Cert.Spec.rowOf_wrap_of_nonneg _ ((hnn c).2 i))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
